-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S64x40 .f32) (main_arg9 : FVec F S40 .f32) (main_v33 : IVec S_ 1) : IVec S_ 1 :=
  let main_v34 : FVec F S64x40 .f32 := Host.absf main_arg8
  let main_cst_12 : FVec F S_ .f32 := constant S_ .f32 0x7F800000#32
  let main_v35 : FVec F S64x40 .f32 := broadcastInDim S64x40 ![] bcast_S_S64x40 main_cst_12
  let main_v36 : IVec S64x40 1 := cmpf .olt main_v34 main_v35
  let main_c_13 : IVec S_ 1 := constantI S_ 1 1#1
  let main_v37 : IVec S_ 1 := (fun x v => Host.reduce IntOp.andi x v reducesTo_S64x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128x64 .f32) (main_arg6 : FVec F S64 .f32) (main_arg7 : FVec F S128x64 .f32) (main_arg8 : FVec F S64x40 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_v33

def fn {F : FTy → Type} [FloatOps F] (main_arg0 : FVec F S40000x128 .f32) (main_arg1 : IVec S2x640000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) (main_arg8 : FVec F S64x40 .f32) (main_arg9 : FVec F S40 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x640000 : Shape := ⟨2, ![1, 640000]⟩
abbrev S640000 : Shape := ⟨1, ![640000]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S640000x128 : Shape := ⟨2, ![640000, 128]⟩
abbrev S4000x128 : Shape := ⟨2, ![4000, 128]⟩
abbrev S1x128 : Shape := ⟨2, ![1, 128]⟩
abbrev S40000x64 : Shape := ⟨2, ![40000, 64]⟩
abbrev S40000x40 : Shape := ⟨2, ![40000, 40]⟩
abbrev S4000x64 : Shape := ⟨2, ![4000, 64]⟩
abbrev S4000x40 : Shape := ⟨2, ![4000, 40]⟩
abbrev S1x64 : Shape := ⟨2, ![1, 64]⟩
abbrev S1x40 : Shape := ⟨2, ![1, 40]⟩

abbrev nBuf : Space → Nat
  | .hbm => 60
  | .vmem => 22
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64x40, .f32⟩
  | .hbm, ⟨9, _⟩ => ⟨S40, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .f32⟩
  | .hbm, ⟨15, _⟩ => ⟨S640000, .f32⟩
  | .hbm, ⟨16, _⟩ => ⟨S_, .f32⟩
  | .hbm, ⟨17, _⟩ => ⟨S40000, .f32⟩
  | .hbm, ⟨18, _⟩ => ⟨S640000x1, .i32⟩
  | .hbm, ⟨19, _⟩ => ⟨S40000, .f32⟩
  | .hbm, ⟨20, _⟩ => ⟨S_, .f32⟩
  | .hbm, ⟨21, _⟩ => ⟨S40000, .f32⟩
  | .hbm, ⟨22, _⟩ => ⟨S40000, .f32⟩
  | .hbm, ⟨23, _⟩ => ⟨S_, .f32⟩
  | .hbm, ⟨24, _⟩ => ⟨S40000, .f32⟩
  | .hbm, ⟨25, _⟩ => ⟨S40000, .f32⟩
  | .hbm, ⟨26, _⟩ => ⟨S40000x1, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .f32⟩
  | .hbm, ⟨36, _⟩ => ⟨S_, .f32⟩
  | .hbm, ⟨37, _⟩ => ⟨S40000x128, .f32⟩
  | .hbm, ⟨38, _⟩ => ⟨S640000x1, .i32⟩
  | .hbm, ⟨39, _⟩ => ⟨S40000x128, .f32⟩
  | .hbm, ⟨40, _⟩ => ⟨S40000x128, .f32⟩
  | .hbm, ⟨41, _⟩ => ⟨S40000x128, .f32⟩
  | .hbm, ⟨42, _⟩ => ⟨S40000x128, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x128, .f32⟩
  | .hbm, ⟨52, _⟩ => ⟨S_, .f32⟩
  | .hbm, ⟨53, _⟩ => ⟨S40000x128, .f32⟩
  | .hbm, ⟨54, _⟩ => ⟨S640000x1, .i32⟩
  | .hbm, ⟨55, _⟩ => ⟨S40000x128, .f32⟩
  | .hbm, ⟨56, _⟩ => ⟨S40000x128, .f32⟩
  | .hbm, ⟨57, _⟩ => ⟨S40000x128, .f32⟩
  | .hbm, ⟨58, _⟩ => ⟨S40000x64, .f32⟩
  | .hbm, ⟨59, _⟩ => ⟨S40000x40, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x64, .f32⟩
  | .local _ .vmem, ⟨14, _⟩ => ⟨S64, .f32⟩
  | .local _ .vmem, ⟨15, _⟩ => ⟨S128x64, .f32⟩
  | .local _ .vmem, ⟨16, _⟩ => ⟨S64x40, .f32⟩
  | .local _ .vmem, ⟨17, _⟩ => ⟨S40, .f32⟩
  | .local _ .vmem, ⟨18, _⟩ => ⟨S4000x64, .f32⟩
  | .local _ .vmem, ⟨19, _⟩ => ⟨S4000x64, .f32⟩
  | .local _ .vmem, ⟨20, _⟩ => ⟨S4000x40, .f32⟩
  | .local _ .vmem, ⟨21, _⟩ => ⟨S4000x40, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38_0 : Ref sig .tc := ⟨.hbm, 58, rfl⟩
abbrev main_v38_1 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S40 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4000x40 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  bcast_S_S40000x128 : S_.BroadcastsInDim S40000x128 (![] : Fin 0 → Fin S40000x128.rank)
  bcast_S40000x1_S40000x128_0_1 : S40000x1.BroadcastsInDim S40000x128 (![0, 1] : Fin 2 → Fin S40000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  inb_S64x40_S64x40_0_0 : ∀ a, (![0, 0] : Fin 2 → Nat) a + S64x40.size a ≤ S64x40.size a
  h_S64x40 : 0 < S64x40.numel
  inb_S40_S40_0 : ∀ a, (![0] : Fin 1 → Nat) a + S40.size a ≤ S40.size a
  h_S40 : 0 < S40.numel
  shapeCasts_S40_S1x40 : S40.ShapeCasts S1x40
  broadcasts_S1x40_S4000x40 : S1x40.Broadcasts S4000x40
  inb_S4000x40_S4000x40_0_0 : ∀ a, (![0, 0] : Fin 2 → Nat) a + S4000x40.size a ≤ S4000x40.size a
  h_S4000x40 : 0 < S4000x40.numel
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  dot_S4000x64_S64x40_S4000x40_1_0_0_1_n_n_wf : DotDims.WF S4000x64 S64x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S40000x128.size a
  hwx0_1 : ∀ i : grid0.Coords, EltTy.bits .f32 = 32 ∨ (Rect.block (s := S40000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S40000x128.size a
  hwx0_5 : ∀ i : grid0.Coords, EltTy.bits .f32 = 32 ∨ (Rect.block (s := S40000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S40000x128.size a
  hwx1_1 : ∀ i : grid1.Coords, EltTy.bits .f32 = 32 ∨ (Rect.block (s := S40000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x40.size a ≤ S64x40.size a
  hwx1_5 : ∀ i : grid1.Coords, EltTy.bits .f32 = 32 ∨ (Rect.block (s := S64x40) S64x40.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S40.size a ≤ S40.size a
  hwx1_6 : ∀ i : grid1.Coords, EltTy.bits .f32 = 32 ∨ (Rect.block (s := S40) S40.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x64.size a ≤ S40000x64.size a
  hwx1_7 : ∀ i : grid1.Coords, EltTy.bits .f32 = 32 ∨ (Rect.block (s := S40000x64) S4000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x40.size a ≤ S40000x40.size a
  hwx1_8 : ∀ i : grid1.Coords, EltTy.bits .f32 = 32 ∨ (Rect.block (s := S40000x40) S4000x40.size (cc1_transform_8 i) (hinb1_8 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x40_S4000x40_1_0_0_1_n_n : DotDims S4000x64 S64x40 S4000x40 where
  lhsContracting := [1]
  rhsContracting := [0]
  lhsNonContracting := [0]
  rhsNonContracting := [1]
  lhsBatch := []
  rhsBatch := []
  wf := dot_S4000x64_S64x40_S4000x40_1_0_0_1_n_n_wf

abbrev win0_0 : Pipeline.Window sig grid0 :=
  Pipeline.Window.ofSpec (Memref.whole main_v24) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S40.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38_0) S4000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v38_1) S4000x40.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩
abbrev S40000x64 : Shape := ⟨2, ![40000, 64]⟩
abbrev S1x64 : Shape := ⟨2, ![1, 64]⟩
abbrev S40000x40 : Shape := ⟨2, ![40000, 40]⟩
abbrev S1x40 : Shape := ⟨2, ![1, 40]⟩

abbrev nBuf : Space → Nat
  | .hbm => 86
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64x40, .f32⟩
  | .hbm, ⟨9, _⟩ => ⟨S40, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S40000x128, .f32⟩
  | .hbm, ⟨25, _⟩ => ⟨S640000x1, .i32⟩
  | .hbm, ⟨26, _⟩ => ⟨S40000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S40000, .f32⟩
  | .hbm, ⟨31, _⟩ => ⟨S640000x1, .i32⟩
  | .hbm, ⟨32, _⟩ => ⟨S40000, .f32⟩
  | .hbm, ⟨33, _⟩ => ⟨S_, .f32⟩
  | .hbm, ⟨34, _⟩ => ⟨S40000, .f32⟩
  | .hbm, ⟨35, _⟩ => ⟨S40000, .f32⟩
  | .hbm, ⟨36, _⟩ => ⟨S40000x1, .f32⟩
  | .hbm, ⟨37, _⟩ => ⟨S40000x128, .f32⟩
  | .hbm, ⟨38, _⟩ => ⟨S40000x128, .f32⟩
  | .hbm, ⟨39, _⟩ => ⟨S40000x128, .f32⟩
  | .hbm, ⟨40, _⟩ => ⟨S1x128, .f32⟩
  | .hbm, ⟨41, _⟩ => ⟨S40000x128, .f32⟩
  | .hbm, ⟨42, _⟩ => ⟨S40000x128, .f32⟩
  | .hbm, ⟨43, _⟩ => ⟨S40000x128, .f32⟩
  | .hbm, ⟨44, _⟩ => ⟨S40000x128, .f32⟩
  | .hbm, ⟨45, _⟩ => ⟨S_, .f32⟩
  | .hbm, ⟨46, _⟩ => ⟨S40000x128, .f32⟩
  | .hbm, ⟨47, _⟩ => ⟨S40000x128, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x128, .f32⟩
  | .hbm, ⟨57, _⟩ => ⟨S_, .f32⟩
  | .hbm, ⟨58, _⟩ => ⟨S40000x128, .f32⟩
  | .hbm, ⟨59, _⟩ => ⟨S640000x1, .i32⟩
  | .hbm, ⟨60, _⟩ => ⟨S40000x128, .f32⟩
  | .hbm, ⟨61, _⟩ => ⟨S_, .f32⟩
  | .hbm, ⟨62, _⟩ => ⟨S640000, .f32⟩
  | .hbm, ⟨63, _⟩ => ⟨S_, .f32⟩
  | .hbm, ⟨64, _⟩ => ⟨S40000, .f32⟩
  | .hbm, ⟨65, _⟩ => ⟨S640000x1, .i32⟩
  | .hbm, ⟨66, _⟩ => ⟨S40000, .f32⟩
  | .hbm, ⟨67, _⟩ => ⟨S_, .f32⟩
  | .hbm, ⟨68, _⟩ => ⟨S40000, .f32⟩
  | .hbm, ⟨69, _⟩ => ⟨S40000, .f32⟩
  | .hbm, ⟨70, _⟩ => ⟨S40000x1, .f32⟩
  | .hbm, ⟨71, _⟩ => ⟨S40000x128, .f32⟩
  | .hbm, ⟨72, _⟩ => ⟨S40000x128, .f32⟩
  | .hbm, ⟨73, _⟩ => ⟨S40000x64, .f32⟩
  | .hbm, ⟨74, _⟩ => ⟨S1x64, .f32⟩
  | .hbm, ⟨75, _⟩ => ⟨S40000x64, .f32⟩
  | .hbm, ⟨76, _⟩ => ⟨S40000x64, .f32⟩
  | .hbm, ⟨77, _⟩ => ⟨S40000x64, .f32⟩
  | .hbm, ⟨78, _⟩ => ⟨S40000x64, .f32⟩
  | .hbm, ⟨79, _⟩ => ⟨S_, .f32⟩
  | .hbm, ⟨80, _⟩ => ⟨S40000x64, .f32⟩
  | .hbm, ⟨81, _⟩ => ⟨S40000x64, .f32⟩
  | .hbm, ⟨82, _⟩ => ⟨S40000x40, .f32⟩
  | .hbm, ⟨83, _⟩ => ⟨S1x40, .f32⟩
  | .hbm, ⟨84, _⟩ => ⟨S40000x40, .f32⟩
  | .hbm, ⟨85, _⟩ => ⟨S40000x40, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  bcast_S_S40000x64 : S_.BroadcastsInDim S40000x64 (![] : Fin 0 → Fin S40000x64.rank)
  bcast_S40_S1x40_1 : S40.BroadcastsInDim S1x40 (![1] : Fin 1 → Fin S1x40.rank)
  bcast_S1x40_S40000x40_0_1 : S1x40.BroadcastsInDim S40000x40 (![0, 1] : Fin 2 → Fin S40000x40.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []
  dot_S40000x128_S128x64_S40000x64_1_0_0_1_n_n_wf : DotDims.WF S40000x128 S128x64 S40000x64 [1] [0] [0] [1] [] []
  dot_S40000x64_S64x40_S40000x40_1_0_0_1_n_n_wf : DotDims.WF S40000x64 S64x40 S40000x40 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf
def dot_S40000x64_S64x40_S40000x40_1_0_0_1_n_n : DotDims S40000x64 S64x40 S40000x40 where
  lhsContracting := [1]
  rhsContracting := [0]
  lhsNonContracting := [0]
  rhsNonContracting := [1]
  lhsBatch := []
  rhsBatch := []
  wf := dot_S40000x64_S64x40_S40000x40_1_0_0_1_n_n_wf

class Facts : Prop extends Facts₀ where

variable [Facts]
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.Spec.lean ====
/-
  One mean-aggregating graph layer, entry by entry, and the law that lets the mean be taken either way.

  A layer maps aggregated neighbour features `mean` and node features `x` to
      max (Σ_k mean(p,k)·W(k,q) + b(q) + Σ_k x(p,k)·Ws(k,q)) 0
  at node p and channel q; the read-out adds a bias to one more product. The mean divides a neighbour sum by
  max(deg, 1). On the extended reals a quotient by a NONZERO y is the product with y⁻¹, and max(e, 1) ≥ 1 is never
  zero, so dividing by max(e, 1) and multiplying by 1 / max(e, 1) are the same function of the dividend, whatever
  the dividend and whatever e (infinite values included: the inverse of an infinity is 0 on both sides).
-/
import Idealize.ShloMosaic.PureOps.Ideal
import Idealize.ShloMosaic.Lib.ValueIdx

noncomputable section

namespace Cert.Sage

open Idealize.ShloMosaic Idealize.ShloMosaic.ValueIdx

/-- The zero every clamp compares against. -/
abbrev z32 : EReal := Ideal.ofBits .f32 0x00000000#32

/-- One layer: clamp below at zero of (mean · W + b + x · Ws), entry by entry. -/
def layer {N D H : ℕ} (mean x : (⟨2, ![N, D]⟩ : Shape).Idx → EReal) (W Ws : (⟨2, ![D, H]⟩ : Shape).Idx → EReal)
    (b : (⟨1, ![H]⟩ : Shape).Idx → EReal) : (⟨2, ![N, H]⟩ : Shape).Idx → EReal :=
  fun i => max (((∑ k : Fin D, mean (ix2 (i 0) k) * W (ix2 k (i 1))) + b (ix1 (i 1)))
    + ∑ k : Fin D, x (ix2 (i 0) k) * Ws (ix2 k (i 1))) z32

/-- The read-out: h · W + b, entry by entry. -/
def readout {N D H : ℕ} (h : (⟨2, ![N, D]⟩ : Shape).Idx → EReal) (W : (⟨2, ![D, H]⟩ : Shape).Idx → EReal)
    (b : (⟨1, ![H]⟩ : Shape).Idx → EReal) : (⟨2, ![N, H]⟩ : Shape).Idx → EReal :=
  fun i => (∑ k : Fin D, h (ix2 (i 0) k) * W (ix2 k (i 1))) + b (ix1 (i 1))

theorem layer_ix2 {N D H : ℕ} (mean x : (⟨2, ![N, D]⟩ : Shape).Idx → EReal) (W Ws : (⟨2, ![D, H]⟩ : Shape).Idx → EReal)
    (b : (⟨1, ![H]⟩ : Shape).Idx → EReal) (p : Fin N) (q : Fin H) :
    layer mean x W Ws b (ix2 p q) = max (((∑ k : Fin D, mean (ix2 p k) * W (ix2 k q)) + b (ix1 q))
      + ∑ k : Fin D, x (ix2 p k) * Ws (ix2 k q)) z32 := rfl

theorem readout_ix2 {N D H : ℕ} (h : (⟨2, ![N, D]⟩ : Shape).Idx → EReal) (W : (⟨2, ![D, H]⟩ : Shape).Idx → EReal)
    (b : (⟨1, ![H]⟩ : Shape).Idx → EReal) (p : Fin N) (q : Fin H) :
    readout h W b (ix2 p q) = (∑ k : Fin D, h (ix2 p k) * W (ix2 k q)) + b (ix1 q) := rfl

/-- A layer's entry depends on row p of the two feature arrays only: two pairs of arrays that agree along their rows
    p and p', under weights and a bias that agree, give the same entry. -/
theorem layer_rows {N N' D H : ℕ} (mean x : (⟨2, ![N, D]⟩ : Shape).Idx → EReal) (mean' x' : (⟨2, ![N', D]⟩ : Shape).Idx → EReal)
    (W Ws W' Ws' : (⟨2, ![D, H]⟩ : Shape).Idx → EReal) (b b' : (⟨1, ![H]⟩ : Shape).Idx → EReal)
    (p : Fin N) (p' : Fin N') (q : Fin H)
    (hm : ∀ k : Fin D, mean (ix2 p k) = mean' (ix2 p' k)) (hx : ∀ k : Fin D, x (ix2 p k) = x' (ix2 p' k))
    (hW : ∀ k : Fin D, W (ix2 k q) = W' (ix2 k q)) (hWs : ∀ k : Fin D, Ws (ix2 k q) = Ws' (ix2 k q))
    (hb : b (ix1 q) = b' (ix1 q)) :
    layer mean x W Ws b (ix2 p q) = layer mean' x' W' Ws' b' (ix2 p' q) := by
  rw [layer_ix2, layer_ix2, hb]
  refine congrArg (fun s => max s z32) ?_
  refine congrArg₂ (· + ·) (congrArg (· + b' (ix1 q)) ?_) ?_
  · exact Finset.sum_congr rfl fun k _ => by rw [hm k, hW k]
  · exact Finset.sum_congr rfl fun k _ => by rw [hx k, hWs k]

/-- The read-out's entry depends on row p of its operand only. -/
theorem readout_rows {N N' D H : ℕ} (h : (⟨2, ![N, D]⟩ : Shape).Idx → EReal) (h' : (⟨2, ![N', D]⟩ : Shape).Idx → EReal)
    (W W' : (⟨2, ![D, H]⟩ : Shape).Idx → EReal) (b b' : (⟨1, ![H]⟩ : Shape).Idx → EReal)
    (p : Fin N) (p' : Fin N') (q : Fin H)
    (hh : ∀ k : Fin D, h (ix2 p k) = h' (ix2 p' k)) (hW : ∀ k : Fin D, W (ix2 k q) = W' (ix2 k q))
    (hb : b (ix1 q) = b' (ix1 q)) :
    readout h W b (ix2 p q) = readout h' W' b' (ix2 p' q) := by
  rw [readout_ix2, readout_ix2, hb]
  refine congrArg (· + b' (ix1 q)) ?_
  exact Finset.sum_congr rfl fun k _ => by rw [hh k, hW k]

/-- max(e, 1) is not zero. -/
theorem max_one_ne_zero (e : EReal) : max e 1 ≠ 0 := by
  have h : (0 : EReal) < max e 1 := lt_of_lt_of_le zero_lt_one (le_max_right e 1)
  exact ne_of_gt h

/-- Dividing by max(e, 1) is multiplying by 1 / max(e, 1). -/
theorem div_max_one (a e : EReal) : Ideal.div a (max e 1) = a * Ideal.div 1 (max e 1) := by
  unfold Ideal.div
  rw [if_neg (max_one_ne_zero e), if_neg (max_one_ne_zero e), one_mul]

end Cert.Sage

end
-- ==== Proof.Pay.lean ====
/-
  The two vector-unit bodies read at an entry.

  Each body takes a block of rows of the aggregated features and the same rows of the node features, converts
  both and the weights to a narrower float format (the identity on extended reals), forms two matrix products into
  zero accumulators, adds a bias row to the first, adds the two, and clamps below at zero: entry (p, q) of what it
  stores is max (Σ_k mean(p,k)·W(k,q) + b(q) + Σ_k x(p,k)·Ws(k,q)) 0. The second body also stores the read-out of
  that clamped block, Σ_k emb(p,k)·Wfc(k,q) + bfc(q).
-/
import proofs.«167976_j5686536700270_1_alg».proof.Proof.Gen.KernelIdeal.Skeleton
import proofs.«167976_j5686536700270_1_alg».proof.Proof.LibDense
import proofs.«167976_j5686536700270_1_alg».proof.Proof.Spec
import Idealize.ShloMosaic.Lib.ValueIdx
import Idealize.ShloMosaic.Lib.ValueLayout
import Idealize.ShloMosaic.Lib.Pipeline.Value

noncomputable section

namespace Cert.Sage

open Idealize.ShloMosaic Idealize.ShloMosaic.ValueIdx Cert.KernelIdeal Cert.KernelIdeal.Gen

/-- The first body's stored block is one layer of its loaded blocks. -/
theorem pay0_apply (v0 v3 : Vec Ideal S4000x128 .f32) (v5 v7 : Vec Ideal S128x128 .f32) (v10 : Vec Ideal S128 .f32)
    (p : Fin 4000) (q : Fin 128) :
    k0_pay1 v0 v3 v5 v7 v10 (ix2 p q) = layer v0 v3 v5 v7 v10 (ix2 p q) := by
  rw [layer_ix2]
  unfold k0_pay1
  simp only [maximumf_apply, addf_apply, broadcast_apply, matmul]
  rw [Cert.LibDense.matmul_zero_apply dot_S4000x128_S128x128_S4000x128_1_0_0_1_n_n none rfl rfl rfl rfl rfl rfl,
    Cert.LibDense.matmul_zero_apply dot_S4000x128_S128x128_S4000x128_1_0_0_1_n_n none rfl rfl rfl rfl rfl rfl,
    broadcastTo_1b_ab_apply, shapeCast_a_1a_apply]
  simp only [truncf_apply, shapeCast_self]
  rfl

theorem pay0_eq (v0 v3 : Vec Ideal S4000x128 .f32) (v5 v7 : Vec Ideal S128x128 .f32) (v10 : Vec Ideal S128 .f32) :
    k0_pay1 v0 v3 v5 v7 v10 = layer v0 v3 v5 v7 v10 := by
  funext j
  obtain ⟨p, q, rfl⟩ : ∃ (p : Fin 4000) (q : Fin 128), j = ix2 p q := ⟨j 0, j 1, eq_ix2 j⟩
  exact pay0_apply v0 v3 v5 v7 v10 p q

/-- The second body's first stored block is one layer of its loaded blocks. -/
theorem pay1_apply (v0 v3 : Vec Ideal S4000x128 .f32) (v6 v8 : Vec Ideal S128x64 .f32) (v11 : Vec Ideal S64 .f32)
    (p : Fin 4000) (q : Fin 64) :
    k1_pay1 v0 v3 v6 v8 v11 (ix2 p q) = layer v0 v3 v6 v8 v11 (ix2 p q) := by
  rw [layer_ix2]
  unfold k1_pay1
  simp only [maximumf_apply, addf_apply, broadcast_apply, matmul]
  rw [Cert.LibDense.matmul_zero_apply dot_S4000x128_S128x64_S4000x64_1_0_0_1_n_n none rfl rfl rfl rfl rfl rfl,
    Cert.LibDense.matmul_zero_apply dot_S4000x128_S128x64_S4000x64_1_0_0_1_n_n none rfl rfl rfl rfl rfl rfl,
    broadcastTo_1b_ab_apply, shapeCast_a_1a_apply]
  simp only [truncf_apply, shapeCast_self]
  rfl

theorem pay1_eq (v0 v3 : Vec Ideal S4000x128 .f32) (v6 v8 : Vec Ideal S128x64 .f32) (v11 : Vec Ideal S64 .f32) :
    k1_pay1 v0 v3 v6 v8 v11 = layer v0 v3 v6 v8 v11 := by
  funext j
  obtain ⟨p, q, rfl⟩ : ∃ (p : Fin 4000) (q : Fin 64), j = ix2 p q := ⟨j 0, j 1, eq_ix2 j⟩
  exact pay1_apply v0 v3 v6 v8 v11 p q

/-- The second body's second stored block is the read-out of the first. -/
theorem pay2_apply (v0 v3 : Vec Ideal S4000x128 .f32) (v6 v8 : Vec Ideal S128x64 .f32) (v11 : Vec Ideal S64 .f32)
    (v21 : Vec Ideal S64x40 .f32) (v24 : Vec Ideal S40 .f32) (p : Fin 4000) (q : Fin 40) :
    k1_pay2 v0 v3 v6 v8 v11 v21 v24 (ix2 p q) = readout (layer v0 v3 v6 v8 v11) v21 v24 (ix2 p q) := by
  rw [readout_ix2]
  unfold k1_pay2
  simp only [addf_apply, matmul]
  rw [Cert.LibDense.matmul_zero_apply dot_S4000x64_S64x40_S4000x40_1_0_0_1_n_n none rfl rfl rfl rfl rfl rfl,
    broadcastTo_1b_ab_apply, shapeCast_a_1a_apply]
  simp only [truncf_apply, pay1_eq]

theorem pay2_eq (v0 v3 : Vec Ideal S4000x128 .f32) (v6 v8 : Vec Ideal S128x64 .f32) (v11 : Vec Ideal S64 .f32)
    (v21 : Vec Ideal S64x40 .f32) (v24 : Vec Ideal S40 .f32) :
    k1_pay2 v0 v3 v6 v8 v11 v21 v24 = readout (layer v0 v3 v6 v8 v11) v21 v24 := by
  funext j
  obtain ⟨p, q, rfl⟩ : ∃ (p : Fin 4000) (q : Fin 40), j = ix2 p q := ⟨j 0, j 1, eq_ix2 j⟩
  exact pay2_apply v0 v3 v6 v8 v11 v21 v24 p q

end Cert.Sage

end
-- ==== Proof.Region0.lean ====
/-
  The first region's result array.

  The grid has ten points; point t takes rows 4000·t … 4000·t + 3999 of the aggregated features and of the node
  features, the whole weight matrices and the bias, and writes back the same rows of the result. What it writes is
  one layer of the blocks it loaded, and a layer's entry (p, q) depends on row p of the two feature arrays only, so
  the block written back is the block of the layer of the WHOLE arrays. The ten blocks tile the 40000 rows (row r is
  in block r / 4000), so the array ends holding the layer of the arrays the region found.
-/
import proofs.«167976_j5686536700270_1_alg».proof.Proof.Gen.KernelIdeal.Frame
import proofs.«167976_j5686536700270_1_alg».proof.Proof.Pay

set_option maxRecDepth 16384

noncomputable section

namespace Cert.Sage.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The layer of the arrays the region finds. -/
abbrev G (c : Dev nD) : S40000x128.Idx → EReal :=
  layer (N := 40000) (D := 128) (H := 128) (V c main_v24) (V c main_arg0) (V c main_arg2) (V c main_arg4) (V c main_arg3)

/-- The printed index maps over the grid: the row-blocked windows sit at block row t, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row 4000·t + p of a 40000-row array, for a point t of the grid and a row p of a block. -/
def row (t : Fin cfg0.N) (p : Fin 4000) : Fin 40000 := ⟨t.val * 4000 + p.val, by
  have ht : t.val < 10 := lt_of_lt_of_eq t.isLt N_0
  have hp := p.isLt; omega⟩

/-- The aggregated features' block at point t is their rows 4000·t …. -/
theorem read_mean (c : Dev nD) (t : Fin cfg0.N) (p : Fin 4000) (k : Fin 128) :
    iblk0 V c 0 t (ix2 p k) = V c main_v24 (ix2 (row t p) k) := by
  obtain ⟨e00, e01, -⟩ := idx_facts t
  show V c main_v24 (((cfg0.win 0).blk t).view.emb (ix2 p k)) = V c main_v24 (ix2 (row t p) k)
  refine congrArg (V c main_v24) (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * k.val = k.val; omega

/-- The node features' block at point t is their rows 4000·t …. -/
theorem read_x (c : Dev nD) (t : Fin cfg0.N) (p : Fin 4000) (k : Fin 128) :
    iblk0 V c 1 t (ix2 p k) = V c main_arg0 (ix2 (row t p) k) := by
  obtain ⟨-, -, e10, e11, -⟩ := idx_facts t
  show V c main_arg0 (((cfg0.win 1).blk t).view.emb (ix2 p k)) = V c main_arg0 (ix2 (row t p) k)
  refine congrArg (V c main_arg0) (funext fun a => Fin.ext ?_)
  match a with
  | ⟨0, _⟩ => show win0_1.index t (0 : Fin 2) * 4000 + 1 * p.val = t.val * 4000 + p.val; omega
  | ⟨1, _⟩ => show win0_1.index t (1 : Fin 2) * 128 + 1 * k.val = k.val; omega

/-- The weight and bias blocks are the whole arrays at every point. -/
theorem read_W (c : Dev nD) (t : Fin cfg0.N) (k : Fin 128) (q : Fin 128) :
    iblk0 V c 2 t (ix2 k q) = V c main_arg2 (ix2 k q) := by
  obtain ⟨-, -, -, -, e20, e21, -⟩ := idx_facts t
  show V c main_arg2 (((cfg0.win 2).blk t).view.emb (ix2 k q)) = V c main_arg2 (ix2 k q)
  refine congrArg (V c main_arg2) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem read_b (c : Dev nD) (t : Fin cfg0.N) (q : Fin 128) :
    iblk0 V c 3 t (ix1 q) = V c main_arg3 (ix1 q) := by
  obtain ⟨-, -, -, -, -, -, e30, -⟩ := idx_facts t
  show V c main_arg3 (((cfg0.win 3).blk t).view.emb (ix1 q)) = V c main_arg3 (ix1 q)
  refine congrArg (V c main_arg3) (funext fun a => Fin.ext ?_)
  match a with
  | ⟨0, _⟩ => show win0_3.index t (0 : Fin 1) * 128 + 1 * q.val = q.val; omega

theorem read_Ws (c : Dev nD) (t : Fin cfg0.N) (k : Fin 128) (q : Fin 128) :
    iblk0 V c 4 t (ix2 k q) = V c main_arg4 (ix2 k q) := by
  obtain ⟨-, -, -, -, -, -, -, e40, e41, -⟩ := idx_facts t
  show V c main_arg4 (((cfg0.win 4).blk t).view.emb (ix2 k q)) = V c main_arg4 (ix2 k q)
  refine congrArg (V c main_arg4) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- Entry (p, q) of the result's block at point t is entry (4000·t + p, q) of the array. -/
theorem emb_out (t : Fin cfg0.N) (p : Fin 4000) (q : Fin 128) :
    ((cfg0.win 5).blk t).view.emb (ix2 p q) = ix2 (row t p) q := by
  obtain ⟨-, -, -, -, -, -, -, -, -, e50, e51⟩ := idx_facts t
  refine funext fun a => Fin.ext ?_
  match a with
  | ⟨0, _⟩ => show win0_5.index t (0 : Fin 2) * 4000 + 1 * p.val = t.val * 4000 + p.val; omega
  | ⟨1, _⟩ => show win0_5.index t (1 : Fin 2) * 128 + 1 * q.val = q.val; omega

/-- What point t writes back is block t of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S4000x128) hz2, View.ld_unit_zero (S := S128x128) hz2, View.ld_unit_zero (S := S128) hz1]
  refine funext fun (j : S4000x128.Idx) => ?_
  obtain ⟨p, q, rfl⟩ : ∃ (p : Fin 4000) (q : Fin 128), j = ix2 p q := ⟨j 0, j 1, eq_ix2 j⟩
  refine (pay0_apply (iblk0 V c 0 t) (iblk0 V c 1 t) (iblk0 V c 2 t) (iblk0 V c 4 t) (iblk0 V c 3 t) p q).trans ?_
  show _ = G V c (((cfg0.win 5).blk t).view.emb (ix2 p q))
  rw [emb_out t p q]
  exact layer_rows (N := 4000) (N' := 40000) (D := 128) (H := 128) (iblk0 V c 0 t) (iblk0 V c 1 t) (V c main_v24) (V c main_arg0)
    (iblk0 V c 2 t) (iblk0 V c 4 t) (V c main_arg2) (V c main_arg4) (iblk0 V c 3 t) (V c main_arg3) p (row t p) q
    (fun k => read_mean V c t p k) (fun k => read_x V c t p k) (fun k => read_W V c t k q) (fun k => read_Ws V c t k q)
    (read_b V c t q)

/-- An index is in point t's block iff its row is among the block's 4000 rows. -/
theorem mem_blk (t : Fin cfg0.N) (i : S40000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v25).slice (win0_5.rect t)).set ↔ _
  rw [View.set_slice_whole, Rect.mem_set_unit]
  exact Iff.rfl

/-- The ten blocks cover the array: row r is in block r / 4000. -/
theorem cover (i : S40000x128.Idx) : ∃ t : Fin cfg0.N, (cfg0.win 5).flush t = true ∧ i ∈ ((cfg0.win 5).blk t).view.set := by
  have hi0 : (i 0).val < 40000 := (i 0).isLt
  have hi1 : (i 1).val < 128 := (i 1).isLt
  let t : Fin cfg0.N := ⟨(i 0).val / 4000, lt_of_lt_of_eq (by omega : (i 0).val / 4000 < 10) N_0.symm⟩
  obtain ⟨-, -, -, -, -, -, -, -, -, e50, e51⟩ := idx_facts t
  have e50' : win0_5.index t (0 : Fin 2) = (i 0).val / 4000 := e50
  refine ⟨t, flush0_5 t, ?_⟩
  rw [mem_blk]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- THE RESULT ARRAY after the region: the layer of the arrays it found. -/
theorem final (c : Dev nD) : (dat0 V c).arrAt 5 cfg0.N = G V c :=
  (dat0 V c).arrAt_eq_of_cover 5 (G V c) (fun t _ => flushed_eq V c t) (cover)

end Cert.Sage.Region0

end
-- ==== Proof.Region1.lean ====
/-
  The second region's two result arrays.

  As in the first region, point t of the ten-point grid takes rows 4000·t … 4000·t + 3999 of the aggregated hidden
  features and of the hidden features, with the whole weights and biases, and writes back the same rows of both
  results: the second layer of the blocks it loaded, and the read-out of that. Both depend, entry by entry, on one
  row of the row-blocked operands only, so each block written back is the block of one function of the WHOLE arrays;
  the ten blocks tile the 40000 rows, so the arrays end holding the layer and its read-out of what the region found.
-/
import proofs.«167976_j5686536700270_1_alg».proof.Proof.Gen.KernelIdeal.Frame
import proofs.«167976_j5686536700270_1_alg».proof.Proof.Pay

set_option maxRecDepth 16384

noncomputable section

namespace Cert.Sage.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The second layer of the arrays the region finds. -/
abbrev Gemb (c : Dev nD) : S40000x64.Idx → EReal :=
  layer (N := 40000) (D := 128) (H := 64) (V c main_v37) (V c main_v25) (V c main_arg5) (V c main_arg7) (V c main_arg6)

/-- Its read-out. -/
abbrev Glog (c : Dev nD) : S40000x40.Idx → EReal :=
  readout (N := 40000) (D := 64) (H := 40) (Gemb V c) (V c main_arg8) (V c main_arg9)

/-- The printed index maps over the grid: the row-blocked windows sit at block row t, the others at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- Row 4000·t + p of a 40000-row array, for a point t of the grid and a row p of a block. -/
def row (t : Fin cfg1.N) (p : Fin 4000) : Fin 40000 := ⟨t.val * 4000 + p.val, by
  have ht : t.val < 10 := lt_of_lt_of_eq t.isLt N_1
  have hp := p.isLt; omega⟩

theorem read_mean (c : Dev nD) (t : Fin cfg1.N) (p : Fin 4000) (k : Fin 128) :
    iblk1 V c 0 t (ix2 p k) = V c main_v37 (ix2 (row t p) k) := by
  obtain ⟨e00, e01, -⟩ := idx_facts t
  show V c main_v37 (((cfg1.win 0).blk t).view.emb (ix2 p k)) = V c main_v37 (ix2 (row t p) k)
  refine congrArg (V c main_v37) (funext fun a => Fin.ext ?_)
  match a with
  | ⟨0, _⟩ => show win1_0.index t (0 : Fin 2) * 4000 + 1 * p.val = t.val * 4000 + p.val; omega
  | ⟨1, _⟩ => show win1_0.index t (1 : Fin 2) * 128 + 1 * k.val = k.val; omega

theorem read_h (c : Dev nD) (t : Fin cfg1.N) (p : Fin 4000) (k : Fin 128) :
    iblk1 V c 1 t (ix2 p k) = V c main_v25 (ix2 (row t p) k) := by
  obtain ⟨-, -, e10, e11, -⟩ := idx_facts t
  show V c main_v25 (((cfg1.win 1).blk t).view.emb (ix2 p k)) = V c main_v25 (ix2 (row t p) k)
  refine congrArg (V c main_v25) (funext fun a => Fin.ext ?_)
  match a with
  | ⟨0, _⟩ => show win1_1.index t (0 : Fin 2) * 4000 + 1 * p.val = t.val * 4000 + p.val; omega
  | ⟨1, _⟩ => show win1_1.index t (1 : Fin 2) * 128 + 1 * k.val = k.val; omega

theorem read_W (c : Dev nD) (t : Fin cfg1.N) (k : Fin 128) (q : Fin 64) :
    iblk1 V c 2 t (ix2 k q) = V c main_arg5 (ix2 k q) := by
  obtain ⟨-, -, -, -, e20, e21, -⟩ := idx_facts t
  show V c main_arg5 (((cfg1.win 2).blk t).view.emb (ix2 k q)) = V c main_arg5 (ix2 k q)
  refine congrArg (V c main_arg5) (funext fun a => Fin.ext ?_)
  match a with
  | ⟨0, _⟩ => show win1_2.index t (0 : Fin 2) * 128 + 1 * k.val = k.val; omega
  | ⟨1, _⟩ => show win1_2.index t (1 : Fin 2) * 64 + 1 * q.val = q.val; omega

theorem read_b (c : Dev nD) (t : Fin cfg1.N) (q : Fin 64) :
    iblk1 V c 3 t (ix1 q) = V c main_arg6 (ix1 q) := by
  obtain ⟨-, -, -, -, -, -, e30, -⟩ := idx_facts t
  show V c main_arg6 (((cfg1.win 3).blk t).view.emb (ix1 q)) = V c main_arg6 (ix1 q)
  refine congrArg (V c main_arg6) (funext fun a => Fin.ext ?_)
  match a with
  | ⟨0, _⟩ => show win1_3.index t (0 : Fin 1) * 64 + 1 * q.val = q.val; omega

theorem read_Ws (c : Dev nD) (t : Fin cfg1.N) (k : Fin 128) (q : Fin 64) :
    iblk1 V c 4 t (ix2 k q) = V c main_arg7 (ix2 k q) := by
  obtain ⟨-, -, -, -, -, -, -, e40, e41, -⟩ := idx_facts t
  show V c main_arg7 (((cfg1.win 4).blk t).view.emb (ix2 k q)) = V c main_arg7 (ix2 k q)
  refine congrArg (V c main_arg7) (funext fun a => Fin.ext ?_)
  match a with
  | ⟨0, _⟩ => show win1_4.index t (0 : Fin 2) * 128 + 1 * k.val = k.val; omega
  | ⟨1, _⟩ => show win1_4.index t (1 : Fin 2) * 64 + 1 * q.val = q.val; omega

theorem read_Wfc (c : Dev nD) (t : Fin cfg1.N) (k : Fin 64) (q : Fin 40) :
    iblk1 V c 5 t (ix2 k q) = V c main_arg8 (ix2 k q) := by
  obtain ⟨-, -, -, -, -, -, -, -, -, e50, e51, -⟩ := idx_facts t
  show V c main_arg8 (((cfg1.win 5).blk t).view.emb (ix2 k q)) = V c main_arg8 (ix2 k q)
  refine congrArg (V c main_arg8) (funext fun a => Fin.ext ?_)
  match a with
  | ⟨0, _⟩ => show win1_5.index t (0 : Fin 2) * 64 + 1 * k.val = k.val; omega
  | ⟨1, _⟩ => show win1_5.index t (1 : Fin 2) * 40 + 1 * q.val = q.val; omega

theorem read_bfc (c : Dev nD) (t : Fin cfg1.N) (q : Fin 40) :
    iblk1 V c 6 t (ix1 q) = V c main_arg9 (ix1 q) := by
  obtain ⟨-, -, -, -, -, -, -, -, -, -, -, e60, -⟩ := idx_facts t
  show V c main_arg9 (((cfg1.win 6).blk t).view.emb (ix1 q)) = V c main_arg9 (ix1 q)
  refine congrArg (V c main_arg9) (funext fun a => Fin.ext ?_)
  match a with
  | ⟨0, _⟩ => show win1_6.index t (0 : Fin 1) * 40 + 1 * q.val = q.val; omega

/-- The layer of the blocks at point t, at (p, q), is the layer of the whole arrays at (4000·t + p, q). -/
theorem blk_layer (c : Dev nD) (t : Fin cfg1.N) (p : Fin 4000) (q : Fin 64) :
    layer (N := 4000) (D := 128) (H := 64) (iblk1 V c 0 t) (iblk1 V c 1 t) (iblk1 V c 2 t) (iblk1 V c 4 t) (iblk1 V c 3 t) (ix2 p q)
      = Gemb V c (ix2 (row t p) q) :=
  layer_rows (N := 4000) (N' := 40000) (D := 128) (H := 64) (iblk1 V c 0 t) (iblk1 V c 1 t) (V c main_v37) (V c main_v25)
    (iblk1 V c 2 t) (iblk1 V c 4 t) (V c main_arg5) (V c main_arg7) (iblk1 V c 3 t) (V c main_arg6) p (row t p) q
    (fun k => read_mean V c t p k) (fun k => read_h V c t p k) (fun k => read_W V c t k q) (fun k => read_Ws V c t k q)
    (read_b V c t q)

theorem emb_out7 (t : Fin cfg1.N) (p : Fin 4000) (q : Fin 64) :
    ((cfg1.win 7).blk t).view.emb (ix2 p q) = ix2 (row t p) q := by
  obtain ⟨-, -, -, -, -, -, -, -, -, -, -, -, e70, e71, -⟩ := idx_facts t
  refine funext fun a => Fin.ext ?_
  match a with
  | ⟨0, _⟩ => show win1_7.index t (0 : Fin 2) * 4000 + 1 * p.val = t.val * 4000 + p.val; omega
  | ⟨1, _⟩ => show win1_7.index t (1 : Fin 2) * 64 + 1 * q.val = q.val; omega

theorem emb_out8 (t : Fin cfg1.N) (p : Fin 4000) (q : Fin 40) :
    ((cfg1.win 8).blk t).view.emb (ix2 p q) = ix2 (row t p) q := by
  obtain ⟨-, -, -, -, -, -, -, -, -, -, -, -, -, -, e80, e81⟩ := idx_facts t
  refine funext fun a => Fin.ext ?_
  match a with
  | ⟨0, _⟩ => show win1_8.index t (0 : Fin 2) * 4000 + 1 * p.val = t.val * 4000 + p.val; omega
  | ⟨1, _⟩ => show win1_8.index t (1 : Fin 2) * 40 + 1 * q.val = q.val; omega

/-- What point t writes back to the first result is block t of the layer of the whole arrays. -/
theorem flushed7_eq (c : Dev nD) (t : Fin cfg1.N) :
    (dat1 V c).flushed 7 t = ((cfg1.win 7).blk t).view.read (Elt Ideal) (Gemb V c) := by
  show (cfg1.win 7).cut (grid1.coords t) ((dat1 V c).after 7 t) = _
  rw [after1_7]
  unfold out1_7
  rw [View.canon_unit_zero hz2]
  simp only [View.ld_unit_zero (S := S4000x128) hz2, View.ld_unit_zero (S := S128x64) hz2, View.ld_unit_zero (S := S64) hz1]
  refine funext fun (j : S4000x64.Idx) => ?_
  obtain ⟨p, q, rfl⟩ : ∃ (p : Fin 4000) (q : Fin 64), j = ix2 p q := ⟨j 0, j 1, eq_ix2 j⟩
  refine (pay1_apply (iblk1 V c 0 t) (iblk1 V c 1 t) (iblk1 V c 2 t) (iblk1 V c 4 t) (iblk1 V c 3 t) p q).trans ?_
  show _ = Gemb V c (((cfg1.win 7).blk t).view.emb (ix2 p q))
  rw [emb_out7 t p q]
  exact blk_layer V c t p q

/-- What point t writes back to the second result is block t of the read-out of that layer. -/
theorem flushed8_eq (c : Dev nD) (t : Fin cfg1.N) :
    (dat1 V c).flushed 8 t = ((cfg1.win 8).blk t).view.read (Elt Ideal) (Glog V c) := by
  show (cfg1.win 8).cut (grid1.coords t) ((dat1 V c).after 8 t) = _
  rw [after1_8]
  unfold out1_8
  rw [View.canon_unit_zero hz2]
  simp only [View.ld_unit_zero (S := S4000x128) hz2, View.ld_unit_zero (S := S128x64) hz2, View.ld_unit_zero (S := S64) hz1,
    View.ld_unit_zero (S := S64x40) hz2, View.ld_unit_zero (S := S40) hz1]
  refine funext fun (j : S4000x40.Idx) => ?_
  obtain ⟨p, q, rfl⟩ : ∃ (p : Fin 4000) (q : Fin 40), j = ix2 p q := ⟨j 0, j 1, eq_ix2 j⟩
  refine (pay2_apply (iblk1 V c 0 t) (iblk1 V c 1 t) (iblk1 V c 2 t) (iblk1 V c 4 t) (iblk1 V c 3 t) (iblk1 V c 5 t) (iblk1 V c 6 t) p q).trans ?_
  show _ = Glog V c (((cfg1.win 8).blk t).view.emb (ix2 p q))
  rw [emb_out8 t p q]
  exact readout_rows (N := 4000) (N' := 40000) (D := 64) (H := 40)
    (layer (N := 4000) (D := 128) (H := 64) (iblk1 V c 0 t) (iblk1 V c 1 t) (iblk1 V c 2 t) (iblk1 V c 4 t) (iblk1 V c 3 t)) (Gemb V c)
    (iblk1 V c 5 t) (V c main_arg8) (iblk1 V c 6 t) (V c main_arg9) p (row t p) q
    (fun k => blk_layer V c t p k) (fun k => read_Wfc V c t k q) (read_bfc V c t q)

theorem mem_blk7 (t : Fin cfg1.N) (i : S40000x64.Idx) :
    i ∈ ((cfg1.win 7).blk t).view.set ↔ ∀ a : Fin 2, win1_7.index t a * S4000x64.size a ≤ (i a).val ∧ (i a).val < win1_7.index t a * S4000x64.size a + S4000x64.size a := by
  show i ∈ ((View.whole main_v38_0).slice (win1_7.rect t)).set ↔ _
  rw [View.set_slice_whole, Rect.mem_set_unit]
  exact Iff.rfl

theorem mem_blk8 (t : Fin cfg1.N) (i : S40000x40.Idx) :
    i ∈ ((cfg1.win 8).blk t).view.set ↔ ∀ a : Fin 2, win1_8.index t a * S4000x40.size a ≤ (i a).val ∧ (i a).val < win1_8.index t a * S4000x40.size a + S4000x40.size a := by
  show i ∈ ((View.whole main_v38_1).slice (win1_8.rect t)).set ↔ _
  rw [View.set_slice_whole, Rect.mem_set_unit]
  exact Iff.rfl

/-- The ten blocks cover each result: row r is in block r / 4000. -/
theorem cover7 (i : S40000x64.Idx) : ∃ t : Fin cfg1.N, (cfg1.win 7).flush t = true ∧ i ∈ ((cfg1.win 7).blk t).view.set := by
  have hi0 : (i 0).val < 40000 := (i 0).isLt
  have hi1 : (i 1).val < 64 := (i 1).isLt
  let t : Fin cfg1.N := ⟨(i 0).val / 4000, lt_of_lt_of_eq (by omega : (i 0).val / 4000 < 10) N_1.symm⟩
  obtain ⟨-, -, -, -, -, -, -, -, -, -, -, -, e70, e71, -⟩ := idx_facts t
  have e70' : win1_7.index t (0 : Fin 2) = (i 0).val / 4000 := e70
  refine ⟨t, flush1_7 t, ?_⟩
  rw [mem_blk7]
  intro a
  match a with
  | ⟨0, _⟩ => show win1_7.index t (0 : Fin 2) * 4000 ≤ (i 0).val ∧ (i 0).val < win1_7.index t (0 : Fin 2) * 4000 + 4000; omega
  | ⟨1, _⟩ => show win1_7.index t (1 : Fin 2) * 64 ≤ (i 1).val ∧ (i 1).val < win1_7.index t (1 : Fin 2) * 64 + 64; omega

theorem cover8 (i : S40000x40.Idx) : ∃ t : Fin cfg1.N, (cfg1.win 8).flush t = true ∧ i ∈ ((cfg1.win 8).blk t).view.set := by
  have hi0 : (i 0).val < 40000 := (i 0).isLt
  have hi1 : (i 1).val < 40 := (i 1).isLt
  let t : Fin cfg1.N := ⟨(i 0).val / 4000, lt_of_lt_of_eq (by omega : (i 0).val / 4000 < 10) N_1.symm⟩
  obtain ⟨-, -, -, -, -, -, -, -, -, -, -, -, -, -, e80, e81⟩ := idx_facts t
  have e80' : win1_8.index t (0 : Fin 2) = (i 0).val / 4000 := e80
  refine ⟨t, flush1_8 t, ?_⟩
  rw [mem_blk8]
  intro a
  match a with
  | ⟨0, _⟩ => show win1_8.index t (0 : Fin 2) * 4000 ≤ (i 0).val ∧ (i 0).val < win1_8.index t (0 : Fin 2) * 4000 + 4000; omega
  | ⟨1, _⟩ => show win1_8.index t (1 : Fin 2) * 40 ≤ (i 1).val ∧ (i 1).val < win1_8.index t (1 : Fin 2) * 40 + 40; omega

/-- THE RESULT ARRAYS after the region: the layer of the arrays it found, and the read-out of that. -/
theorem final7 (c : Dev nD) : (dat1 V c).arrAt 7 cfg1.N = Gemb V c :=
  (dat1 V c).arrAt_eq_of_cover 7 (Gemb V c) (fun t _ => flushed7_eq V c t) (cover7)

theorem final8 (c : Dev nD) : (dat1 V c).arrAt 8 cfg1.N = Glog V c :=
  (dat1 V c).arrAt_eq_of_cover 8 (Glog V c) (fun t _ => flushed8_eq V c t) (cover8)

end Cert.Sage.Region1

end
-- ==== Proof.Mean.lean ====
/-
  The mean over neighbours, taken two ways.

  One program divides the neighbour sum by max(deg, 1) broadcast along the feature axis; the other forms
  1 / max(deg, 1) per node first, broadcasts that, and multiplies. Entry (p, q) of either reads the degree at node p
  only, and there the two are a / max(e, 1) and a · (1 / max(e, 1)), one value by the law of the quotient at a
  divisor that is not zero. Both are stated for ANY neighbour-sum array and ANY degree array.
-/
import proofs.«167976_j5686536700270_1_alg».proof.Proof.Spec
import Idealize.ShloMosaic.Lib.IdealHost
import Idealize.ShloMosaic.Lib.Pipeline.Value

noncomputable section

namespace Cert.Sage

open Idealize.ShloMosaic Idealize.ShloMosaic.ValueIdx

/-- A column [N, 1] broadcast along a new second axis reads, at (p, q), the column at p. -/
theorem bcast_col_apply {α : Type} {N C : ℕ} (h : (⟨2, ![N, 1]⟩ : Shape).BroadcastsInDim ⟨2, ![N, C]⟩ ![0, 1])
    (y : (⟨2, ![N, 1]⟩ : Shape).Idx → α) (p : Fin N) (q : Fin C) :
    broadcastInDim ⟨2, ![N, C]⟩ ![0, 1] h y (ix2 p q) = y (ix2 p (0 : Fin 1)) := by
  refine broadcastInDim_apply ![0, 1] h y (ix2 p q) (ix2 p (0 : Fin 1)) ?_
  intro a
  fin_cases a
  · show p.val = if N = 1 then 0 else p.val
    split_ifs with hn
    · have := p.isLt; omega
    · rfl
  · show (0 : ℕ) = if (1 : ℕ) = 1 then 0 else _
    simp

/-- A vector [N] laid out as a column [N, 1] reads, at (p, 0), the vector at p. -/
theorem bcast_vec_col_apply {α : Type} {N : ℕ} (h : (⟨1, ![N]⟩ : Shape).BroadcastsInDim ⟨2, ![N, 1]⟩ ![0])
    (y : (⟨1, ![N]⟩ : Shape).Idx → α) (p : Fin N) (u : Fin 1) :
    broadcastInDim ⟨2, ![N, 1]⟩ ![0] h y (ix2 p u) = y (ix1 p) := by
  refine broadcastInDim_apply ![0] h y (ix2 p u) (ix1 p) ?_
  intro a
  fin_cases a
  show p.val = if N = 1 then 0 else p.val
  split_ifs with hn
  · have := p.isLt; omega
  · rfl

/-- Multiplying a neighbour sum by the broadcast reciprocal of max(deg, 1) is dividing it by the broadcast
    max(deg, 1). -/
theorem mean_eq {N C : ℕ} (h1 : (⟨2, ![N, 1]⟩ : Shape).BroadcastsInDim ⟨2, ![N, C]⟩ ![0, 1])
    (h2 : (⟨1, ![N]⟩ : Shape).BroadcastsInDim ⟨2, ![N, 1]⟩ ![0]) (h3 : (⟨0, ![]⟩ : Shape).BroadcastsInDim ⟨1, ![N]⟩ ![])
    (A : FVec Ideal ⟨2, ![N, C]⟩ .f32) (D : FVec Ideal ⟨1, ![N]⟩ .f32) :
    mulf A (broadcastInDim ⟨2, ![N, C]⟩ ![0, 1] h1 (broadcastInDim ⟨2, ![N, 1]⟩ ![0] h2
        (Host.divf (broadcastInDim ⟨1, ![N]⟩ ![] h3 (constant (F := Ideal) ⟨0, ![]⟩ .f32 0x3F800000#32))
          (maximumf D (broadcastInDim ⟨1, ![N]⟩ ![] h3 (constant (F := Ideal) ⟨0, ![]⟩ .f32 0x3F800000#32))))))
      = Host.divf A (broadcastInDim ⟨2, ![N, C]⟩ ![0, 1] h1 (broadcastInDim ⟨2, ![N, 1]⟩ ![0] h2
          (maximumf D (broadcastInDim ⟨1, ![N]⟩ ![] h3 (constant (F := Ideal) ⟨0, ![]⟩ .f32 0x3F800000#32))))) := by
  funext i
  obtain ⟨p, q, rfl⟩ : ∃ (p : Fin N) (q : Fin C), i = ix2 p q := ⟨i 0, i 1, eq_ix2 i⟩
  rw [mulf_apply, hostDivf_apply, bcast_col_apply, bcast_col_apply, bcast_vec_col_apply, bcast_vec_col_apply,
    hostDivf_apply, maximumf_apply, broadcastInDim_scalar_apply, constant_apply, Ideal.ofBits_one_f32]
  exact (div_max_one _ _).symm

end Cert.Sage

end
-- ==== Proof.HostK.lean ====
/-
  The idealized program's host stretches, read back in the reference's own terms.

  Before the first region the program slices the two index rows out of the edge list, counts each node's incoming
  edges by a scatter-add of ones, forms 1 / max(count, 1) as a column, gathers the input features along the edges,
  scatter-adds them at the destinations, and multiplies by the broadcast reciprocal column. Between the regions it
  does the same gather, scatter-add and product with the hidden features, reusing the index rows and the reciprocal
  column. The index rows, the count and the neighbour sums are, term for term, the reference's own stages; only the
  last step differs (a product with a reciprocal where the reference divides), and that is the law of the mean.
  Every lemma is stated for ANY contents of the buffers a stretch starts from.
-/
import proofs.«167976_j5686536700270_1_alg».proof.Proof.Gen.KernelIdeal.Launch
import proofs.«167976_j5686536700270_1_alg».proof.Proof.Gen.ReferenceIdeal.Read
import proofs.«167976_j5686536700270_1_alg».proof.Proof.Mean
import Idealize.ShloMosaic.Lib.StableHlo.Run

set_option maxRecDepth 16384

noncomputable section

namespace Cert.Sage.Host

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Read

variable (W : Valuation τ sig (Elt Ideal))

/-- The reciprocal column 1 / max(count, 1) of an edge list. -/
def recipCol (e : (⟨S2x640000, .i32⟩ : BufTy).Contents (Elt Ideal)) : (⟨S40000x1, .f32⟩ : BufTy).Contents (Elt Ideal) :=
  broadcastInDim S40000x1 ![0] bcast_S40000_S40000x1_0
    (Host.divf (broadcastInDim S40000 ![] bcast_S_S40000 (constant (F := Ideal) S_ .f32 0x3F800000#32))
      (maximumf (val_main_v17 (F := Ideal) e) (broadcastInDim S40000 ![] bcast_S_S40000 (constant (F := Ideal) S_ .f32 0x3F800000#32))))

set_option maxHeartbeats 8000000 in
/-- The source-index row after the first stretch is the reference's. -/
theorem src_eq : StableHlo.after hostOps0 W (Proc.devRef .tc main_v1) = val_main_v1 (F := Ideal) (W (Proc.devRef .tc main_arg1)) := by
  after_results_simp
  rfl

set_option maxHeartbeats 8000000 in
/-- The destination-index row after the first stretch is the reference's. -/
theorem dst_eq : StableHlo.after hostOps0 W (Proc.devRef .tc main_v3) = val_main_v3 (F := Ideal) (W (Proc.devRef .tc main_arg1)) := by
  after_results_simp
  rfl

set_option maxHeartbeats 8000000 in
/-- The reciprocal column after the first stretch. -/
theorem recip_eq : StableHlo.after hostOps0 W (Proc.devRef .tc main_v12) = recipCol (W (Proc.devRef .tc main_arg1)) := by
  after_results_simp
  rfl

set_option maxHeartbeats 8000000 in
/-- The first region's aggregated operand is the reference's mean of the input features' neighbours. -/
theorem mean1_eq : StableHlo.after hostOps0 W (Proc.devRef .tc main_v24)
    = val_main_v22 (F := Ideal) (W (Proc.devRef .tc main_arg0)) (W (Proc.devRef .tc main_arg1)) := by
  after_results_simp
  exact mean_eq bcast_S40000x1_S40000x128_0_1 bcast_S40000_S40000x1_0 bcast_S_S40000
    (val_main_v13 (F := Ideal) (W (Proc.devRef .tc main_arg0)) (W (Proc.devRef .tc main_arg1)))
    (val_main_v17 (F := Ideal) (W (Proc.devRef .tc main_arg1)))

/-- The reference's mean of the neighbours of hidden features h along an edge list e. -/
def meanOf (h : FVec Ideal Cert.ReferenceIdeal.S40000x128 .f32) (e : IVec Cert.ReferenceIdeal.S2x640000 32) :
    FVec Ideal Cert.ReferenceIdeal.S40000x128 .f32 :=
  Host.divf (F := Ideal) (Host.scatterAdd Cert.ReferenceIdeal.scatter_S40000x128_S640000x1_S640000x128_1_0_0_1 (val_main_v37 (F := Ideal))
      (val_main_v38 (F := Ideal) e) (Host.gather Cert.ReferenceIdeal.gather_S40000x128_S640000x1_S640000x128_1_0_n_n_0_1_1128 h (val_main_v35 (F := Ideal) e)))
    (val_main_v47 (F := Ideal) e)

set_option maxHeartbeats 8000000 in
/-- The second region's aggregated operand, when the stretch starts from hidden features h, the reference's index
    rows and the reciprocal column of an edge list e: the reference's mean of h's neighbours. -/
theorem mean2_eq (h : (⟨S40000x128, .f32⟩ : BufTy).Contents (Elt Ideal)) (e : (⟨S2x640000, .i32⟩ : BufTy).Contents (Elt Ideal))
    (h25 : W (Proc.devRef .tc main_v25) = h) (h1 : W (Proc.devRef .tc main_v1) = val_main_v1 (F := Ideal) e)
    (h3 : W (Proc.devRef .tc main_v3) = val_main_v3 (F := Ideal) e) (h12 : W (Proc.devRef .tc main_v12) = recipCol e) :
    StableHlo.after hostOps1 W (Proc.devRef .tc main_v37) = meanOf h e := by
  after_results_simp
  rw [h25, h1, h3, h12]
  unfold meanOf
  exact mean_eq bcast_S40000x1_S40000x128_0_1 bcast_S40000_S40000x1_0 bcast_S_S40000
    (Host.scatterAdd Cert.ReferenceIdeal.scatter_S40000x128_S640000x1_S640000x128_1_0_0_1 (val_main_v37 (F := Ideal))
      (val_main_v38 (F := Ideal) e) (Host.gather Cert.ReferenceIdeal.gather_S40000x128_S640000x1_S640000x128_1_0_n_n_0_1_1128 h (val_main_v35 (F := Ideal) e)))
    (val_main_v43 (F := Ideal) e)

/-! The buffers a stretch does not write keep their contents. -/

set_option maxHeartbeats 8000000 in
theorem keep0_arg0 : StableHlo.after hostOps0 W (Proc.devRef .tc main_arg0) = W (Proc.devRef .tc main_arg0) := by
  after_results_simp

set_option maxHeartbeats 8000000 in
theorem keep0_arg2 : StableHlo.after hostOps0 W (Proc.devRef .tc main_arg2) = W (Proc.devRef .tc main_arg2) := by
  after_results_simp

set_option maxHeartbeats 8000000 in
theorem keep0_arg3 : StableHlo.after hostOps0 W (Proc.devRef .tc main_arg3) = W (Proc.devRef .tc main_arg3) := by
  after_results_simp

set_option maxHeartbeats 8000000 in
theorem keep0_arg4 : StableHlo.after hostOps0 W (Proc.devRef .tc main_arg4) = W (Proc.devRef .tc main_arg4) := by
  after_results_simp

set_option maxHeartbeats 8000000 in
theorem keep0_arg5 : StableHlo.after hostOps0 W (Proc.devRef .tc main_arg5) = W (Proc.devRef .tc main_arg5) := by
  after_results_simp

set_option maxHeartbeats 8000000 in
theorem keep0_arg6 : StableHlo.after hostOps0 W (Proc.devRef .tc main_arg6) = W (Proc.devRef .tc main_arg6) := by
  after_results_simp

set_option maxHeartbeats 8000000 in
theorem keep0_arg7 : StableHlo.after hostOps0 W (Proc.devRef .tc main_arg7) = W (Proc.devRef .tc main_arg7) := by
  after_results_simp

set_option maxHeartbeats 8000000 in
theorem keep0_arg8 : StableHlo.after hostOps0 W (Proc.devRef .tc main_arg8) = W (Proc.devRef .tc main_arg8) := by
  after_results_simp

set_option maxHeartbeats 8000000 in
theorem keep0_arg9 : StableHlo.after hostOps0 W (Proc.devRef .tc main_arg9) = W (Proc.devRef .tc main_arg9) := by
  after_results_simp

set_option maxHeartbeats 8000000 in
theorem keep1_v25 : StableHlo.after hostOps1 W (Proc.devRef .tc main_v25) = W (Proc.devRef .tc main_v25) := by
  after_results_simp

set_option maxHeartbeats 8000000 in
theorem keep1_arg5 : StableHlo.after hostOps1 W (Proc.devRef .tc main_arg5) = W (Proc.devRef .tc main_arg5) := by
  after_results_simp

set_option maxHeartbeats 8000000 in
theorem keep1_arg6 : StableHlo.after hostOps1 W (Proc.devRef .tc main_arg6) = W (Proc.devRef .tc main_arg6) := by
  after_results_simp

set_option maxHeartbeats 8000000 in
theorem keep1_arg7 : StableHlo.after hostOps1 W (Proc.devRef .tc main_arg7) = W (Proc.devRef .tc main_arg7) := by
  after_results_simp

set_option maxHeartbeats 8000000 in
theorem keep1_arg8 : StableHlo.after hostOps1 W (Proc.devRef .tc main_arg8) = W (Proc.devRef .tc main_arg8) := by
  after_results_simp

set_option maxHeartbeats 8000000 in
theorem keep1_arg9 : StableHlo.after hostOps1 W (Proc.devRef .tc main_arg9) = W (Proc.devRef .tc main_arg9) := by
  after_results_simp

end Cert.Sage.Host

end
-- ==== Proof.RefLayer.lean ====
/-
  The reference's spelling of a layer and of the read-out, as whole-array operations, read entry by entry.

  The reference forms a layer as clamp( (mean · W + bias row broadcast down the rows) + x · Ws ) with two general
  dot products, and the read-out as h · W + bias row. Entry (p, q) of a general dot that contracts the left operand's
  columns with the right operand's rows is Σ_k left(p,k)·right(k,q); the broadcast bias reads b(q); the clamp's zero
  array reads the zero word. So the arrays are the layer and the read-out of the specification.
-/
import proofs.«167976_j5686536700270_1_alg».proof.Proof.Spec
import proofs.«167976_j5686536700270_1_alg».proof.Proof.LibDense
import Idealize.ShloMosaic.Lib.IdealHost
import Idealize.ShloMosaic.Lib.KernelVsHost
import Idealize.ShloMosaic.Lib.Pipeline.Value

noncomputable section

namespace Cert.Sage

open Idealize.ShloMosaic Idealize.ShloMosaic.ValueIdx

/-- A vector [H] laid out as a one-row matrix [1, H] reads, at (0, q), the vector at q. -/
theorem bcast_row_apply {α : Type} {H : ℕ} (h : (⟨1, ![H]⟩ : Shape).BroadcastsInDim ⟨2, ![1, H]⟩ ![1])
    (y : (⟨1, ![H]⟩ : Shape).Idx → α) (u : Fin 1) (q : Fin H) :
    broadcastInDim ⟨2, ![1, H]⟩ ![1] h y (ix2 u q) = y (ix1 q) := by
  refine broadcastInDim_apply ![1] h y (ix2 u q) (ix1 q) ?_
  intro a
  fin_cases a
  show q.val = if H = 1 then 0 else q.val
  split_ifs with hn
  · have := q.isLt; omega
  · rfl

variable {N D H : ℕ} (d : DotDims ⟨2, ![N, D]⟩ ⟨2, ![D, H]⟩ ⟨2, ![N, H]⟩)

/-- The reference's layer is the specification's. -/
theorem host_layer_eq (hlc : d.lhsContracting = [1]) (hrc : d.rhsContracting = [0]) (hln : d.lhsNonContracting = [0])
    (hrn : d.rhsNonContracting = [1]) (hlb : d.lhsBatch = []) (hrb : d.rhsBatch = [])
    (h1 : (⟨2, ![1, H]⟩ : Shape).BroadcastsInDim ⟨2, ![N, H]⟩ ![0, 1]) (h2 : (⟨1, ![H]⟩ : Shape).BroadcastsInDim ⟨2, ![1, H]⟩ ![1])
    (h3 : (⟨0, ![]⟩ : Shape).BroadcastsInDim ⟨2, ![N, H]⟩ ![])
    (M X : FVec Ideal ⟨2, ![N, D]⟩ .f32) (W Ws : FVec Ideal ⟨2, ![D, H]⟩ .f32) (b : FVec Ideal ⟨1, ![H]⟩ .f32) :
    maximumf (addf (addf (Host.dotGeneral d none M W)
        (broadcastInDim ⟨2, ![N, H]⟩ ![0, 1] h1 (broadcastInDim ⟨2, ![1, H]⟩ ![1] h2 b))) (Host.dotGeneral d none X Ws))
      (broadcastInDim ⟨2, ![N, H]⟩ ![] h3 (constant (F := Ideal) ⟨0, ![]⟩ .f32 0x00000000#32))
      = layer M X W Ws b := by
  funext i
  obtain ⟨p, q, rfl⟩ : ∃ (p : Fin N) (q : Fin H), i = ix2 p q := ⟨i 0, i 1, eq_ix2 i⟩
  rw [layer_ix2, maximumf_apply, addf_apply, addf_apply]
  simp only [Host.dotGeneral]
  rw [Cert.LibDense.dotGeneral_apply d none _ hlc hrc hln hrn hlb hrb, Cert.LibDense.dotGeneral_apply d none _ hlc hrc hln hrn hlb hrb,
    broadcastInDim_oneRow_apply, bcast_row_apply, broadcastInDim_scalar_apply, constant_apply]

/-- The reference's read-out is the specification's. -/
theorem host_readout_eq (hlc : d.lhsContracting = [1]) (hrc : d.rhsContracting = [0]) (hln : d.lhsNonContracting = [0])
    (hrn : d.rhsNonContracting = [1]) (hlb : d.lhsBatch = []) (hrb : d.rhsBatch = [])
    (h1 : (⟨2, ![1, H]⟩ : Shape).BroadcastsInDim ⟨2, ![N, H]⟩ ![0, 1]) (h2 : (⟨1, ![H]⟩ : Shape).BroadcastsInDim ⟨2, ![1, H]⟩ ![1])
    (E : FVec Ideal ⟨2, ![N, D]⟩ .f32) (W : FVec Ideal ⟨2, ![D, H]⟩ .f32) (b : FVec Ideal ⟨1, ![H]⟩ .f32) :
    addf (Host.dotGeneral d none E W) (broadcastInDim ⟨2, ![N, H]⟩ ![0, 1] h1 (broadcastInDim ⟨2, ![1, H]⟩ ![1] h2 b))
      = readout E W b := by
  funext i
  obtain ⟨p, q, rfl⟩ : ∃ (p : Fin N) (q : Fin H), i = ix2 p q := ⟨i 0, i 1, eq_ix2 i⟩
  rw [readout_ix2, addf_apply]
  simp only [Host.dotGeneral]
  rw [Cert.LibDense.dotGeneral_apply d none _ hlc hrc hln hrn hlb hrb, broadcastInDim_oneRow_apply, bcast_row_apply]

end Cert.Sage

end
-- ==== Proof.RefValue.lean ====
/-
  The reference, stage by stage, is two layers and a read-out.

  Its hidden features are the layer of (the mean of the gathered input features, the input features); its embedding is
  the layer of (the mean of the gathered hidden features, the hidden features); its logits are the read-out of the
  embedding. Each is the reference's own whole-array spelling of the specification's function.
-/
import proofs.«167976_j5686536700270_1_alg».proof.Proof.Gen.ReferenceIdeal.Read
import proofs.«167976_j5686536700270_1_alg».proof.Proof.RefLayer

noncomputable section

namespace Cert.Sage.Ref

open Idealize.ShloMosaic Idealize.ShloMosaic.ValueIdx
open Cert.ReferenceIdeal Cert.ReferenceIdeal.Gen Cert.ReferenceIdeal.Read

variable (x0 : (⟨S40000x128, .f32⟩ : BufTy).Contents (Elt Ideal)) (x1 : (⟨S2x640000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128x64, .f32⟩ : BufTy).Contents (Elt Ideal))
  (x6 : (⟨S64, .f32⟩ : BufTy).Contents (Elt Ideal)) (x7 : (⟨S128x64, .f32⟩ : BufTy).Contents (Elt Ideal))
  (x8 : (⟨S64x40, .f32⟩ : BufTy).Contents (Elt Ideal)) (x9 : (⟨S40, .f32⟩ : BufTy).Contents (Elt Ideal))

/-- The hidden features: the first layer over the mean of the input features' neighbours. -/
theorem hidden_eq : val_main_v29 (F := Ideal) x0 x1 x2 x3 x4
    = layer (N := 40000) (D := 128) (H := 128) (val_main_v22 (F := Ideal) x0 x1) x0 x2 x4 x3 := by
  unfold val_main_v29 val_main_v28 val_main_v26 val_main_v27 val_main_v25 val_main_v24 val_main_v23 val_main_call0_v0 val_main_call0_cst
  exact host_layer_eq dot_S40000x128_S128x128_S40000x128_1_0_0_1_n_n rfl rfl rfl rfl rfl rfl bcast_S1x128_S40000x128_0_1
    bcast_S128_S1x128_1 bcast_S_S40000x128 (val_main_v22 (F := Ideal) x0 x1) x0 x2 x4 x3

/-- The embedding: the second layer over the mean of the hidden features' neighbours. -/
theorem emb_eq : val_main_v55 (F := Ideal) x0 x1 x2 x3 x4 x5 x6 x7
    = layer (N := 40000) (D := 128) (H := 64) (val_main_v48 (F := Ideal) x0 x1 x2 x3 x4) (val_main_v29 (F := Ideal) x0 x1 x2 x3 x4) x5 x7 x6 := by
  unfold val_main_v55 val_main_v54 val_main_v52 val_main_v53 val_main_v51 val_main_v50 val_main_v49 val_main_call1_v0 val_main_call1_cst
  exact host_layer_eq dot_S40000x128_S128x64_S40000x64_1_0_0_1_n_n rfl rfl rfl rfl rfl rfl bcast_S1x64_S40000x64_0_1
    bcast_S64_S1x64_1 bcast_S_S40000x64 (val_main_v48 (F := Ideal) x0 x1 x2 x3 x4) (val_main_v29 (F := Ideal) x0 x1 x2 x3 x4) x5 x7 x6

/-- The logits: the read-out of the embedding. -/
theorem logits_eq : val_main_v59 (F := Ideal) x0 x1 x2 x3 x4 x5 x6 x7 x8 x9
    = readout (N := 40000) (D := 64) (H := 40) (val_main_v55 (F := Ideal) x0 x1 x2 x3 x4 x5 x6 x7) x8 x9 := by
  unfold val_main_v59 val_main_v58 val_main_v57 val_main_v56
  exact host_readout_eq dot_S40000x64_S64x40_S40000x40_1_0_0_1_n_n rfl rfl rfl rfl rfl rfl bcast_S1x40_S40000x40_0_1
    bcast_S40_S1x40_1 (val_main_v55 (F := Ideal) x0 x1 x2 x3 x4 x5 x6 x7) x8 x9

end Cert.Sage.Ref

end
-- ==== Proof.KernelValue.lean ====
/-
  The idealized program's two results as the reference's functions of the launch contents.

  The buffer contents at the four segment boundaries are folded from the launch memory: a host stretch applies its
  operations, a region replaces its result arrays by what its write-backs leave. Reading that fold: the first region
  finds the mean of the input features' neighbours and the arguments as launched, so it leaves the reference's hidden
  features; the second stretch forms the mean of the hidden features' neighbours from them, reusing the index rows and
  the reciprocal column of the first stretch (no region writes those); the second region then leaves the reference's
  embedding and logits.
-/
import proofs.«167976_j5686536700270_1_alg».proof.Proof.Gen.KernelIdeal.Frame
import proofs.«167976_j5686536700270_1_alg».proof.Proof.Region0
import proofs.«167976_j5686536700270_1_alg».proof.Proof.Region1
import proofs.«167976_j5686536700270_1_alg».proof.Proof.HostK
import proofs.«167976_j5686536700270_1_alg».proof.Proof.RefValue

set_option maxRecDepth 16384

noncomputable section

namespace Cert.Sage.Kernel

open Idealize.ShloMosaic Idealize.ShloMosaic.TcCoe Idealize.ShloMosaic.ValueIdx Idealize.SL.Sem
open Cert.KernelIdeal Cert.KernelIdeal.Gen
open Cert.ReferenceIdeal.Read

/-- A layer of equal operands is equal. -/
theorem layer_congr {N D H : ℕ} {mean mean' x x' : (⟨2, ![N, D]⟩ : Shape).Idx → EReal} {W W' Ws Ws' : (⟨2, ![D, H]⟩ : Shape).Idx → EReal}
    {b b' : (⟨1, ![H]⟩ : Shape).Idx → EReal} (hm : mean = mean') (hx : x = x') (hW : W = W') (hWs : Ws = Ws') (hb : b = b') :
    layer mean x W Ws b = layer mean' x' W' Ws' b' := by subst hm hx hW hWs hb; rfl

/-- A read-out of equal operands is equal. -/
theorem readout_congr {N D H : ℕ} {h h' : (⟨2, ![N, D]⟩ : Shape).Idx → EReal} {W W' : (⟨2, ![D, H]⟩ : Shape).Idx → EReal}
    {b b' : (⟨1, ![H]⟩ : Shape).Idx → EReal} (hh : h = h') (hW : W = W') (hb : b = b') :
    readout h W b = readout h' W' b' := by subst hh hW hb; rfl

variable (m : (ℓ : Loc nD τ sig) → Buf (Elt Ideal) ℓ) (ρ : Dev nD → PrngReg)

/-! ## What the first region finds -/

theorem V1_mean (c : Dev nD) : V1 m ρ c main_v24
    = val_main_v22 (F := Ideal) (m ((c : Thread nD τ).loc main_arg0)) (m ((c : Thread nD τ).loc main_arg1)) :=
  Host.mean1_eq (W0 m ρ c)
theorem V1_arg0 (c : Dev nD) : V1 m ρ c main_arg0 = m ((c : Thread nD τ).loc main_arg0) := Host.keep0_arg0 (W0 m ρ c)
theorem V1_arg2 (c : Dev nD) : V1 m ρ c main_arg2 = m ((c : Thread nD τ).loc main_arg2) := Host.keep0_arg2 (W0 m ρ c)
theorem V1_arg3 (c : Dev nD) : V1 m ρ c main_arg3 = m ((c : Thread nD τ).loc main_arg3) := Host.keep0_arg3 (W0 m ρ c)
theorem V1_arg4 (c : Dev nD) : V1 m ρ c main_arg4 = m ((c : Thread nD τ).loc main_arg4) := Host.keep0_arg4 (W0 m ρ c)

/-- The first region leaves the reference's hidden features. -/
theorem hidden (c : Dev nD) : W2 m ρ c (Proc.devRef .tc main_v25)
    = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  calc W2 m ρ c (Proc.devRef .tc main_v25)
    _ = (dat0 (V1 m ρ) c).arrAt 5 cfg0.N := W2_arr m ρ c 5
    _ = Region0.G (V1 m ρ) c := Region0.final (V1 m ρ) c
    _ = layer (N := 40000) (D := 128) (H := 128) (val_main_v22 (F := Ideal) (m ((c : Thread nD τ).loc main_arg0)) (m ((c : Thread nD τ).loc main_arg1)))
          (m ((c : Thread nD τ).loc main_arg0)) (m ((c : Thread nD τ).loc main_arg2)) (m ((c : Thread nD τ).loc main_arg4)) (m ((c : Thread nD τ).loc main_arg3)) :=
        layer_congr (V1_mean m ρ c) (V1_arg0 m ρ c) (V1_arg2 m ρ c) (V1_arg4 m ρ c) (V1_arg3 m ρ c)
    _ = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := (Ref.hidden_eq _ _ _ _ _).symm

/-! ## What the second region finds -/

theorem W2_src (c : Dev nD) : W2 m ρ c (Proc.devRef .tc main_v1) = val_main_v1 (F := Ideal) (m ((c : Thread nD τ).loc main_arg1)) :=
  (W2_of_ne m ρ c main_v1 (by decide)).trans (Host.src_eq (W0 m ρ c))
theorem W2_dst (c : Dev nD) : W2 m ρ c (Proc.devRef .tc main_v3) = val_main_v3 (F := Ideal) (m ((c : Thread nD τ).loc main_arg1)) :=
  (W2_of_ne m ρ c main_v3 (by decide)).trans (Host.dst_eq (W0 m ρ c))
theorem W2_recip (c : Dev nD) : W2 m ρ c (Proc.devRef .tc main_v12) = Host.recipCol (m ((c : Thread nD τ).loc main_arg1)) :=
  (W2_of_ne m ρ c main_v12 (by decide)).trans (Host.recip_eq (W0 m ρ c))

theorem V3_mean (c : Dev nD) : V3 m ρ c main_v37
    = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  Host.mean2_eq (W2 m ρ c) _ _ (hidden m ρ c) (W2_src m ρ c) (W2_dst m ρ c) (W2_recip m ρ c)

theorem V3_hidden (c : Dev nD) : V3 m ρ c main_v25 = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (Host.keep1_v25 (W2 m ρ c)).trans (hidden m ρ c)

theorem V3_arg5 (c : Dev nD) : V3 m ρ c main_arg5 = m ((c : Thread nD τ).loc main_arg5) :=
  (Host.keep1_arg5 (W2 m ρ c)).trans ((W2_of_ne m ρ c main_arg5 (by decide)).trans (Host.keep0_arg5 (W0 m ρ c)))
theorem V3_arg6 (c : Dev nD) : V3 m ρ c main_arg6 = m ((c : Thread nD τ).loc main_arg6) :=
  (Host.keep1_arg6 (W2 m ρ c)).trans ((W2_of_ne m ρ c main_arg6 (by decide)).trans (Host.keep0_arg6 (W0 m ρ c)))
theorem V3_arg7 (c : Dev nD) : V3 m ρ c main_arg7 = m ((c : Thread nD τ).loc main_arg7) :=
  (Host.keep1_arg7 (W2 m ρ c)).trans ((W2_of_ne m ρ c main_arg7 (by decide)).trans (Host.keep0_arg7 (W0 m ρ c)))
theorem V3_arg8 (c : Dev nD) : V3 m ρ c main_arg8 = m ((c : Thread nD τ).loc main_arg8) :=
  (Host.keep1_arg8 (W2 m ρ c)).trans ((W2_of_ne m ρ c main_arg8 (by decide)).trans (Host.keep0_arg8 (W0 m ρ c)))
theorem V3_arg9 (c : Dev nD) : V3 m ρ c main_arg9 = m ((c : Thread nD τ).loc main_arg9) :=
  (Host.keep1_arg9 (W2 m ρ c)).trans ((W2_of_ne m ρ c main_arg9 (by decide)).trans (Host.keep0_arg9 (W0 m ρ c)))

/-- The second region leaves the reference's embedding … -/
theorem emb (c : Dev nD) : W4 m ρ c (Proc.devRef .tc main_v38_0) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  calc W4 m ρ c (Proc.devRef .tc main_v38_0)
    _ = (dat1 (V3 m ρ) c).arrAt 7 cfg1.N := W4_arr m ρ c 7
    _ = Region1.Gemb (V3 m ρ) c := Region1.final7 (V3 m ρ) c
    _ = layer (N := 40000) (D := 128) (H := 64) (val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
          (m ((c : Thread nD τ).loc main_arg5)) (m ((c : Thread nD τ).loc main_arg7)) (m ((c : Thread nD τ).loc main_arg6)) :=
        layer_congr (V3_mean m ρ c) (V3_hidden m ρ c) (V3_arg5 m ρ c) (V3_arg7 m ρ c) (V3_arg6 m ρ c)
    _ = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := (Ref.emb_eq _ _ _ _ _ _ _ _).symm

/-- … and the reference's logits. -/
theorem logits (c : Dev nD) : W4 m ρ c (Proc.devRef .tc main_v38_1) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  calc W4 m ρ c (Proc.devRef .tc main_v38_1)
    _ = (dat1 (V3 m ρ) c).arrAt 8 cfg1.N := W4_arr m ρ c 8
    _ = Region1.Glog (V3 m ρ) c := Region1.final8 (V3 m ρ) c
    _ = readout (N := 40000) (D := 64) (H := 40) (val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
          (m ((c : Thread nD τ).loc main_arg8)) (m ((c : Thread nD τ).loc main_arg9)) :=
        readout_congr ((layer_congr (V3_mean m ρ c) (V3_hidden m ρ c) (V3_arg5 m ρ c) (V3_arg7 m ρ c) (V3_arg6 m ρ c)).trans
          (Ref.emb_eq _ _ _ _ _ _ _ _).symm) (V3_arg8 m ρ c) (V3_arg9 m ρ c)
    _ = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := (Ref.logits_eq _ _ _ _ _ _ _ _ _ _).symm

end Cert.Sage.Kernel

end
-- ==== Proof.lean ====
/-
  Two mean-aggregating graph layers and a read-out: the blocked program against the whole-array reference.

  Both programs gather node features along the edges, add them up at the destination nodes and take the mean over
  max(in-degree, 1); a layer is max(mean · W + b + x · Ws, 0), applied twice, and the logits are emb · Wfc + bfc.
  They differ in two ways only. The blocked program computes each layer ten row blocks at a time on the vector unit
  (in a narrower float format, which is the identity on extended reals), where the reference uses whole-array dot
  products: entry by entry both are the same sums, because a layer's entry reads one row of its operands. And the
  blocked program multiplies the neighbour sum by 1 / max(deg, 1) where the reference divides by max(deg, 1): the
  same value, since max(deg, 1) is never zero. The gather, the scatter-add and the index arithmetic are the same
  operations in both programs and are never opened. No property of the inputs is used: the equality holds for every
  extended-real input and every edge list.

  The three frames are the generated ones (the reference's is its generated run with the results dropped); the
  idealization rewrote nothing, so the second-last conjunct is trivial.
-/
import proofs.«167976_j5686536700270_1_alg».proof.Defs
import proofs.«167976_j5686536700270_1_alg».proof.Proof.Gen.Kernel
import proofs.«167976_j5686536700270_1_alg».proof.Proof.Gen.Kernel.Skeleton
import proofs.«167976_j5686536700270_1_alg».proof.Proof.Gen.Kernel.Launch
import proofs.«167976_j5686536700270_1_alg».proof.Proof.Gen.Kernel.Points
import proofs.«167976_j5686536700270_1_alg».proof.Proof.Gen.Kernel.Frame
import proofs.«167976_j5686536700270_1_alg».proof.Proof.Gen.KernelIdeal
import proofs.«167976_j5686536700270_1_alg».proof.Proof.Gen.KernelIdeal.Skeleton
import proofs.«167976_j5686536700270_1_alg».proof.Proof.Gen.KernelIdeal.Launch
import proofs.«167976_j5686536700270_1_alg».proof.Proof.Gen.KernelIdeal.Points
import proofs.«167976_j5686536700270_1_alg».proof.Proof.Gen.KernelIdeal.Frame
import proofs.«167976_j5686536700270_1_alg».proof.Proof.Gen.ReferenceIdeal
import proofs.«167976_j5686536700270_1_alg».proof.Proof.Gen.Pre_finite_inputs
import proofs.«167976_j5686536700270_1_alg».proof.Proof.Gen.ReferenceIdeal.Run
import proofs.«167976_j5686536700270_1_alg».proof.Proof.Gen.ReferenceIdeal.Read
import proofs.«167976_j5686536700270_1_alg».proof.Proof.KernelRun
import proofs.«167976_j5686536700270_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs end with the reference's embedding and logits of the (shared) launch contents. -/
theorem algebraic : Cert.algebraic_KernelIdeal_ReferenceIdeal := by
  intro m ρ m' ρ' _ hagree
  refine ⟨fun c => Cert.ReferenceIdeal.Read.val_main_v55 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v59 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    ?_, ?_⟩
  · exact (θ_run Cert.KernelIdeal.defs _ _).mono
      (fun r h c => ⟨(h c).1.trans (Cert.Sage.Kernel.emb m ρ c), (h c).2.1.trans (Cert.Sage.Kernel.logits m ρ c), (h c).2.2⟩)
      (Cert.KernelIdeal.Named.run (F := Ideal) m ρ)
  · refine (θ_run Cert.ReferenceIdeal.defs _ _).mono (fun r h c => ?_) (Cert.ReferenceIdeal.Value.run (F := Ideal) m' ρ')
    obtain ⟨e0, e1, e2, e3, e4, e5, e6, e7, e8, e9⟩ := hagree c
    refine ⟨(h c).1.trans ((Cert.ReferenceIdeal.Read.val_main_v55_eq m' c).trans ?_),
      (h c).2.1.trans ((Cert.ReferenceIdeal.Read.val_main_v59_eq m' c).trans ?_), (h c).2.2⟩
    · rw [e0, e1, e2, e3, e4, e5, e6, e7]
    · rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
